-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x64x64 : Shape := ⟨3, ![2, 64, 64]⟩
abbrev S8x2 : Shape := ⟨2, ![8, 2]⟩
abbrev S64 : Shape := ⟨1, ![64]⟩
abbrev S64x64 : Shape := ⟨2, ![64, 64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S2x64x64 : S_.BroadcastsInDim S2x64x64 (![] : Fin 0 → Fin S2x64x64.rank)
  reducesTo_S2x64x64_S_d0_1_2 : S2x64x64.ReducesTo [0, 1, 2] S_
  bcast_S_S8x2 : S_.BroadcastsInDim S8x2 (![] : Fin 0 → Fin S8x2.rank)
  reducesTo_S8x2_S_d0_1 : S8x2.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S50000x64 .f32) (main_arg1 : FVec F S2x64x64 .f32) (main_arg2 : FVec F S8x2 .f32) (main_arg3 : FVec F S64 .f32) (main_arg4 : FVec F S64x64 .f32) (main_arg5 : IVec S800000 32) (main_arg6 : IVec S800000 32) (main_arg7 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S2x64x64 .f32 := Host.absf main_arg1
  let main_cst_0 : FVec F S_ .f32 := constant S_ .f32 0x7F800000#32
  let main_v5 : FVec F S2x64x64 .f32 := broadcastInDim S2x64x64 ![] bcast_S_S2x64x64 main_cst_0
  let main_v6 : IVec S2x64x64 1 := cmpf .olt main_v4 main_v5
  let main_c_1 : IVec S_ 1 := constantI S_ 1 1#1
  let main_v7 : IVec S_ 1 := (fun x v => Host.reduce IntOp.andi x v reducesTo_S2x64x64_S_d0_1_2 h_S_) main_v6 main_c_1
  let main_v8 : IVec S_ 1 := andi main_v3 main_v7
  let main_v9 : FVec F S8x2 .f32 := Host.absf main_arg2
  let main_cst_2 : FVec F S_ .f32 := constant S_ .f32 0x7F800000#32
  let main_v10 : FVec F S8x2 .f32 := broadcastInDim S8x2 ![] bcast_S_S8x2 main_cst_2
  let main_v11 : IVec S8x2 1 := cmpf .olt main_v9 main_v10
  let main_c_3 : IVec S_ 1 := constantI S_ 1 1#1
  let main_v12 : IVec S_ 1 := (fun x v => Host.reduce IntOp.andi x v reducesTo_S8x2_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S50000x64 : Shape := ⟨2, ![50000, 64]⟩
abbrev S2x64x64 : Shape := ⟨3, ![2, 64, 64]⟩
abbrev S8x2 : Shape := ⟨2, ![8, 2]⟩
abbrev S64 : Shape := ⟨1, ![64]⟩
abbrev S64x64 : Shape := ⟨2, ![64, 64]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x2 : Shape := ⟨2, ![800000, 2]⟩
abbrev S800000x128 : Shape := ⟨2, ![800000, 128]⟩
abbrev S16000x64 : Shape := ⟨2, ![16000, 64]⟩
abbrev S16000x2 : Shape := ⟨2, ![16000, 2]⟩
abbrev S16000x128 : Shape := ⟨2, ![16000, 128]⟩
abbrev S16000x1 : Shape := ⟨2, ![16000, 1]⟩
abbrev S50000x128 : Shape := ⟨2, ![50000, 128]⟩
abbrev S128x64 : Shape := ⟨2, ![128, 64]⟩
abbrev S1x64 : Shape := ⟨2, ![1, 64]⟩
abbrev S5000x128 : Shape := ⟨2, ![5000, 128]⟩
abbrev S5000x64 : Shape := ⟨2, ![5000, 64]⟩

abbrev nBuf : Space → Nat
  | .hbm => 34
  | .vmem => 15
  | .smem => 0
  | _ => 0

abbrev bufTy : (tb : Table) → Fin (tcTables nBuf tb) → BufTy
  | .hbm, ⟨0, _⟩ => ⟨S50000x64, .f32⟩
  | .hbm, ⟨1, _⟩ => ⟨S2x64x64, .f32⟩
  | .hbm, ⟨2, _⟩ => ⟨S8x2, .f32⟩
  | .hbm, ⟨3, _⟩ => ⟨S64, .f32⟩
  | .hbm, ⟨4, _⟩ => ⟨S64x64, .f32⟩
  | .hbm, ⟨5, _⟩ => ⟨S800000, .i32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x2, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S128x64, .f32⟩
  | .hbm, ⟨32, _⟩ => ⟨S1x64, .f32⟩
  | .hbm, ⟨33, _⟩ => ⟨S50000x64, .f32⟩
  | .local _ .vmem, ⟨0, _⟩ => ⟨S16000x64, .f32⟩
  | .local _ .vmem, ⟨1, _⟩ => ⟨S16000x64, .f32⟩
  | .local _ .vmem, ⟨2, _⟩ => ⟨S16000x2, .f32⟩
  | .local _ .vmem, ⟨3, _⟩ => ⟨S16000x2, .f32⟩
  | .local _ .vmem, ⟨4, _⟩ => ⟨S16000x128, .f32⟩
  | .local _ .vmem, ⟨5, _⟩ => ⟨S16000x128, .f32⟩
  | .local _ .vmem, ⟨6, _⟩ => ⟨S5000x128, .f32⟩
  | .local _ .vmem, ⟨7, _⟩ => ⟨S5000x128, .f32⟩
  | .local _ .vmem, ⟨8, _⟩ => ⟨S5000x64, .f32⟩
  | .local _ .vmem, ⟨9, _⟩ => ⟨S5000x64, .f32⟩
  | .local _ .vmem, ⟨10, _⟩ => ⟨S128x64, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S16000x2_S16000x2_0_0 : ∀ a, (![0, 0] : Fin 2 → Nat) a + S16000x2.size a ≤ S16000x2.size a
  h_S16000x2 : 0 < S16000x2.numel
  shapeCasts_S16000x2_S16000x2 : S16000x2.ShapeCasts S16000x2
  slices_S16000x2_o0_0_S16000x1 : S16000x2.Slices ![0, 0] S16000x1
  slices_S16000x2_o0_1_S16000x1 : S16000x2.Slices ![0, 1] S16000x1
  broadcasts_S16000x1_S16000x64 : S16000x1.Broadcasts S16000x64
  concatenates_S16000x64_S16000x64_S16000x128_d1 : Shape.Concatenates [S16000x64, S16000x64] S16000x128 1
  inb_S16000x128_S16000x128_0_0 : ∀ a, (![0, 0] : Fin 2 → Nat) a + S16000x128.size a ≤ S16000x128.size a
  h_S16000x128 : 0 < S16000x128.numel
  bcast_S_S50000x128 : S_.BroadcastsInDim S50000x128 (![] : Fin 0 → Fin S50000x128.rank)
  shapeCasts_S2x64x64_S128x64 : S2x64x64.ShapeCasts S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  gather_S8x2_S800000x1_S800000x2_1_0_n_n_0_1_12_wf : GatherDims.WF S8x2 S800000x1 S800000x2 [1] [0] [] [0] [] 1 ![1, 2]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S800000x64.size a
  hwx0_0 : ∀ i : grid0.Coords, EltTy.bits .f32 = 32 ∨ (Rect.block (s := S800000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x2.size a ≤ S800000x2.size a
  hwx0_1 : ∀ i : grid0.Coords, EltTy.bits .f32 = 32 ∨ (Rect.block (s := S800000x2) S16000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x128.size a ≤ S800000x128.size a
  hwx0_2 : ∀ i : grid0.Coords, EltTy.bits .f32 = 32 ∨ (Rect.block (s := S800000x128) S16000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S8x2_S800000x1_S800000x2_1_0_n_n_0_1_12 : GatherDims S8x2 S800000x1 S800000x2 where
  offsetDims := [1]
  collapsedSliceDims := [0]
  operandBatchingDims := []
  startIndicesBatchingDims := []
  startIndexMap := [0]
  indexVectorDim := 1
  sliceSizes := ![1, 2]
  wf := gather_S8x2_S800000x1_S800000x2_1_0_n_n_0_1_12_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v6) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S16000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S16000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x64x64 : Shape := ⟨3, ![2, 64, 64]⟩
abbrev S8x2 : Shape := ⟨2, ![8, 2]⟩
abbrev S64 : Shape := ⟨1, ![64]⟩
abbrev S64x64 : Shape := ⟨2, ![64, 64]⟩
abbrev S800000 : Shape := ⟨1, ![800000]⟩
abbrev S_ : Shape := ⟨0, ![]⟩
abbrev S800000x1 : Shape := ⟨2, ![800000, 1]⟩
abbrev S800000x2 : Shape := ⟨2, ![800000, 2]⟩
abbrev S800000x2x1 : Shape := ⟨3, ![800000, 2, 1]⟩
abbrev S800000x64 : Shape := ⟨2, ![800000, 64]⟩
abbrev S800000x1x64 : Shape := ⟨3, ![800000, 1, 64]⟩
abbrev S800000x2x64 : Shape := ⟨3, ![800000, 2, 64]⟩
abbrev S800000x128 : Shape := ⟨2, ![800000, 128]⟩
abbrev S50000x128 : Shape := ⟨2, ![50000, 128]⟩
abbrev S128x64 : Shape := ⟨2, ![128, 64]⟩
abbrev S1x64 : Shape := ⟨2, ![1, 64]⟩

abbrev nBuf : Space → Nat
  | .hbm => 43
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x64x64, .f32⟩
  | .hbm, ⟨2, _⟩ => ⟨S8x2, .f32⟩
  | .hbm, ⟨3, _⟩ => ⟨S64, .f32⟩
  | .hbm, ⟨4, _⟩ => ⟨S64x64, .f32⟩
  | .hbm, ⟨5, _⟩ => ⟨S800000, .i32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x2, .f32⟩
  | .hbm, ⟨17, _⟩ => ⟨S800000x2x1, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S800000x1x64, .f32⟩
  | .hbm, ⟨28, _⟩ => ⟨S800000x2x64, .f32⟩
  | .hbm, ⟨29, _⟩ => ⟨S800000x2x64, .f32⟩
  | .hbm, ⟨30, _⟩ => ⟨S800000x2x64, .f32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S128x64, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x2_S800000x2x1_0_1 : S800000x2.BroadcastsInDim S800000x2x1 (![0, 1] : Fin 2 → Fin S800000x2x1.rank)
  bcast_S800000x64_S800000x1x64_0_2 : S800000x64.BroadcastsInDim S800000x1x64 (![0, 2] : Fin 2 → Fin S800000x1x64.rank)
  bcast_S800000x2x1_S800000x2x64_0_1_2 : S800000x2x1.BroadcastsInDim S800000x2x64 (![0, 1, 2] : Fin 3 → Fin S800000x2x64.rank)
  bcast_S800000x1x64_S800000x2x64_0_1_2 : S800000x1x64.BroadcastsInDim S800000x2x64 (![0, 1, 2] : Fin 3 → Fin S800000x2x64.rank)
  shapeCasts_S800000x2x64_S800000x128 : S800000x2x64.ShapeCasts S800000x128
  bcast_S_S50000x128 : S_.BroadcastsInDim S50000x128 (![] : Fin 0 → Fin S50000x128.rank)
  shapeCasts_S2x64x64_S128x64 : S2x64x64.ShapeCasts S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S8x2_S800000x1_S800000x2_1_0_n_n_0_1_12_wf : GatherDims.WF S8x2 S800000x1 S800000x2 [1] [0] [] [0] [] 1 ![1, 2]
  gather_S50000x64_S800000x1_S800000x64_1_0_n_n_0_1_164_wf : GatherDims.WF S50000x64 S800000x1 S800000x64 [1] [0] [] [0] [] 1 ![1, 64]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S8x2_S800000x1_S800000x2_1_0_n_n_0_1_12 : GatherDims S8x2 S800000x1 S800000x2 where
  offsetDims := [1]
  collapsedSliceDims := [0]
  operandBatchingDims := []
  startIndicesBatchingDims := []
  startIndexMap := [0]
  indexVectorDim := 1
  sliceSizes := ![1, 2]
  wf := gather_S8x2_S800000x1_S800000x2_1_0_n_n_0_1_12_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  Basis-regularized relational graph convolution, as functions of whole arrays at the exact values.

  Edge e carries the feature row f_e of its source node (64 entries) and the two basis coefficients c_e of its
  relation type. Its message is the 128-vector (f_e · c_{e,0}, f_e · c_{e,1}): entry j of it is
  f_e[j mod 64] · c_e[j div 64]. The messages are summed per destination node into agg (128 entries a node), and
  node n's output row is
      agg_n · Wr  +  feat_n · Wl  +  b,
  with Wr the two basis matrices stacked (128 × 64), Wl the self-loop weight (64 × 64) and b the bias row.

  Negative node and relation indices are first wrapped around by the table's extent; reading the two tables at the
  edges' indices and summing the messages per destination are kept as the two opaque host operations they are.
-/
import proofs.«169675_j10900626997971_1_alg».proof.Proof.Gen.KernelIdeal
import Idealize.ShloMosaic.Lib.ValueIdx
import Idealize.ShloMosaic.PureOps.Ideal.Laws

noncomputable section

namespace Cert.RelGraph

open Idealize.ShloMosaic Idealize.ShloMosaic.ValueIdx Cert.KernelIdeal Cert.KernelIdeal.Gen

/-- The messages of all edges: entry (e, j) is f_e[j mod 64] · c_e[j div 64]. -/
def message (fs : FVec Ideal S800000x64 .f32) (cf : FVec Ideal S800000x2 .f32) : FVec Ideal S800000x128 .f32 :=
  fun i => fs (ix2 (⟨(i 0).val, idx2_lt0 i⟩ : Fin 800000) (⟨(i 1).val % 64, Nat.mod_lt _ (by decide)⟩ : Fin 64))
    * cf (ix2 (⟨(i 0).val, idx2_lt0 i⟩ : Fin 800000) (⟨(i 1).val / 64, by have := idx2_lt1 i; omega⟩ : Fin 2))

/-- The output rows of all nodes: entry (n, o) is Σ_κ agg[n, κ] · Wr[κ, o] + Σ_κ feat[n, κ] · Wl[κ, o] + b[o]. -/
def nodeOut (agg : FVec Ideal S50000x128 .f32) (feat : FVec Ideal S50000x64 .f32) (wr : FVec Ideal S128x64 .f32)
    (b : FVec Ideal S1x64 .f32) (wl : FVec Ideal S64x64 .f32) : FVec Ideal S50000x64 .f32 :=
  fun i => (∑ κ : Fin 128, agg (ix2 (⟨(i 0).val, idx2_lt0 i⟩ : Fin 50000) κ) * wr (ix2 κ (⟨(i 1).val, idx2_lt1 i⟩ : Fin 64))
      + ∑ κ : Fin 64, feat (ix2 (⟨(i 0).val, idx2_lt0 i⟩ : Fin 50000) κ) * wl (ix2 κ (⟨(i 1).val, idx2_lt1 i⟩ : Fin 64)))
    + b (ix2 (0 : Fin 1) (⟨(i 1).val, idx2_lt1 i⟩ : Fin 64))

/-- An index array with its negative entries wrapped around by the extent n, as a column of one-entry index vectors. -/
def wrapCol (n : BitVec 32) (x : (⟨S800000, .i32⟩ : BufTy).Contents (Elt Ideal)) : (⟨S800000x1, .i32⟩ : BufTy).Contents (Elt Ideal) :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 n))) x)

/-- The feature rows of the edges' source nodes. -/
def featAtSrc (feat : (⟨S50000x64, .f32⟩ : BufTy).Contents (Elt Ideal)) (src : (⟨S800000, .i32⟩ : BufTy).Contents (Elt Ideal)) :
    (⟨S800000x64, .f32⟩ : BufTy).Contents (Elt Ideal) :=
  Host.gather gather_S50000x64_S800000x1_S800000x64_1_0_n_n_0_1_164 feat (wrapCol 50000#32 src)

/-- The basis coefficients of the edges' relation types. -/
def coeffAtType (coeff : (⟨S8x2, .f32⟩ : BufTy).Contents (Elt Ideal)) (ety : (⟨S800000, .i32⟩ : BufTy).Contents (Elt Ideal)) :
    (⟨S800000x2, .f32⟩ : BufTy).Contents (Elt Ideal) :=
  Host.gather gather_S8x2_S800000x1_S800000x2_1_0_n_n_0_1_12 coeff (wrapCol 8#32 ety)

/-- The per-destination sums of the edges' messages, from zero. -/
def aggregate (dst : (⟨S800000, .i32⟩ : BufTy).Contents (Elt Ideal)) (msg : (⟨S800000x128, .f32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst) msg

/-- The layer's output as one function of its eight arguments. -/
def layer (feat : (⟨S50000x64, .f32⟩ : BufTy).Contents (Elt Ideal)) (w : (⟨S2x64x64, .f32⟩ : BufTy).Contents (Elt Ideal))
    (coeff : (⟨S8x2, .f32⟩ : BufTy).Contents (Elt Ideal)) (bias : (⟨S64, .f32⟩ : BufTy).Contents (Elt Ideal))
    (wl : (⟨S64x64, .f32⟩ : BufTy).Contents (Elt Ideal)) (src dst ety : (⟨S800000, .i32⟩ : BufTy).Contents (Elt Ideal)) :
    (⟨S50000x64, .f32⟩ : BufTy).Contents (Elt Ideal) :=
  nodeOut (aggregate dst (message (featAtSrc feat src) (coeffAtType coeff ety))) feat
    (shapeCast _ w shapeCasts_S2x64x64_S128x64) (shapeCast _ bias shapeCasts_S64_S1x64) wl

end Cert.RelGraph

end
-- ==== Proof.KernelHost.lean ====
/-
  The host side of the kernel program, read off its buffers at the segment boundaries.

  Before the first region the program wraps the negative entries of the source and relation-type index arrays and
  reads the feature table and the coefficient table at them: the first region finds the edges' feature rows and
  coefficient pairs. Between the regions it sums the messages per destination node from zero and re-lays the basis
  weights as a 128 × 64 matrix and the bias as a row: the second region finds the aggregate, the node features, these
  two and the self-loop weight. No host operation and no region writes an argument.
-/
import proofs.«169675_j10900626997971_1_alg».proof.Proof.Gen.KernelIdeal.Frame
import proofs.«169675_j10900626997971_1_alg».proof.Proof.Spec
import Idealize.ShloMosaic.Lib.StableHlo.Run

set_option maxRecDepth 16384

noncomputable section

namespace Cert.RelGraph.KernelHost

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Before the first region -/

/-- The first region finds the feature rows of the edges' source nodes … -/
theorem entry0_feat (c : Dev nD) : V1 m ρ c main_v6 = featAtSrc (m ((c : Thread nD τ).loc main_arg0)) (m ((c : Thread nD τ).loc main_arg5)) := by
  show StableHlo.after hostOps0 (W0 m ρ c) (Proc.devRef .tc main_v6) = _
  after_results; rfl

/-- … and the basis coefficients of the edges' relation types. -/
theorem entry0_coeff (c : Dev nD) : V1 m ρ c main_v13 = coeffAtType (m ((c : Thread nD τ).loc main_arg2)) (m ((c : Thread nD τ).loc main_arg7)) := by
  show StableHlo.after hostOps0 (W0 m ρ c) (Proc.devRef .tc main_v13) = _
  after_results; rfl

/-- The first stretch writes no argument. -/
theorem W1_arg0 (c : Dev nD) : W1 m ρ c (Proc.devRef .tc main_arg0) = (m ((c : Thread nD τ).loc main_arg0)) := by
  show StableHlo.after hostOps0 (W0 m ρ c) (Proc.devRef .tc main_arg0) = _
  after_results
theorem W1_arg1 (c : Dev nD) : W1 m ρ c (Proc.devRef .tc main_arg1) = (m ((c : Thread nD τ).loc main_arg1)) := by
  show StableHlo.after hostOps0 (W0 m ρ c) (Proc.devRef .tc main_arg1) = _
  after_results
theorem W1_arg3 (c : Dev nD) : W1 m ρ c (Proc.devRef .tc main_arg3) = (m ((c : Thread nD τ).loc main_arg3)) := by
  show StableHlo.after hostOps0 (W0 m ρ c) (Proc.devRef .tc main_arg3) = _
  after_results
theorem W1_arg4 (c : Dev nD) : W1 m ρ c (Proc.devRef .tc main_arg4) = (m ((c : Thread nD τ).loc main_arg4)) := by
  show StableHlo.after hostOps0 (W0 m ρ c) (Proc.devRef .tc main_arg4) = _
  after_results
theorem W1_arg6 (c : Dev nD) : W1 m ρ c (Proc.devRef .tc main_arg6) = (m ((c : Thread nD τ).loc main_arg6)) := by
  show StableHlo.after hostOps0 (W0 m ρ c) (Proc.devRef .tc main_arg6) = _
  after_results

/-! ## Between the regions -/

/-- The first region writes only its message array: an argument is as the first stretch left it. -/
theorem W2_arg0 (c : Dev nD) : W2 m ρ c (Proc.devRef .tc main_arg0) = (m ((c : Thread nD τ).loc main_arg0)) :=
  (W2_of_ne m ρ c main_arg0 (by decide)).trans (W1_arg0 m ρ c)
theorem W2_arg1 (c : Dev nD) : W2 m ρ c (Proc.devRef .tc main_arg1) = (m ((c : Thread nD τ).loc main_arg1)) :=
  (W2_of_ne m ρ c main_arg1 (by decide)).trans (W1_arg1 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg6 (c : Dev nD) : W2 m ρ c (Proc.devRef .tc main_arg6) = (m ((c : Thread nD τ).loc main_arg6)) :=
  (W2_of_ne m ρ c main_arg6 (by decide)).trans (W1_arg6 m ρ c)

/-- The second region finds the per-destination sums of what the first region left in its message array … -/
theorem entry1_agg (c : Dev nD) : V3 m ρ c main_v17 = aggregate (m ((c : Thread nD τ).loc main_arg6)) ((dat0 (V1 m ρ) c).arrAt 2 cfg0.N) := by
  show StableHlo.after hostOps1 (W2 m ρ c) (Proc.devRef .tc main_v17) = _
  after_results
  rw [W2_arg6, show W2 m ρ c (Proc.devRef .tc main_v14) = (dat0 (V1 m ρ) c).arrAt 2 cfg0.N from W2_arr m ρ c 2]
  rfl

/-- … the node features … -/
theorem entry1_feat (c : Dev nD) : V3 m ρ c main_arg0 = (m ((c : Thread nD τ).loc main_arg0)) := by
  show StableHlo.after hostOps1 (W2 m ρ c) (Proc.devRef .tc main_arg0) = _
  after_results; exact W2_arg0 m ρ c

/-- … the two basis matrices stacked … -/
theorem entry1_wr (c : Dev nD) : V3 m ρ c main_v18 = shapeCast _ (m ((c : Thread nD τ).loc main_arg1)) shapeCasts_S2x64x64_S128x64 := by
  show StableHlo.after hostOps1 (W2 m ρ c) (Proc.devRef .tc main_v18) = _
  after_results; rw [W2_arg1]; rfl

/-- … the bias as a row … -/
theorem entry1_bias (c : Dev nD) : V3 m ρ c main_v19 = shapeCast _ (m ((c : Thread nD τ).loc main_arg3)) shapeCasts_S64_S1x64 := by
  show StableHlo.after hostOps1 (W2 m ρ c) (Proc.devRef .tc main_v19) = _
  after_results; rw [W2_arg3]; rfl

/-- … and the self-loop weight. -/
theorem entry1_wl (c : Dev nD) : V3 m ρ c main_arg4 = (m ((c : Thread nD τ).loc main_arg4)) := by
  show StableHlo.after hostOps1 (W2 m ρ c) (Proc.devRef .tc main_arg4) = _
  after_results; exact W2_arg4 m ρ c

end Cert.RelGraph.KernelHost

end
-- ==== Proof.Region0.lean ====
/-
  The first kernel region: the messages of all edges.

  Grid point t takes rows 16000·t … 16000·t + 15999 of the edges' feature rows and of their coefficient pairs and
  writes the same rows of the message array. Inside a block, entry (p, q) of the body's result is the feature entry
  (p, q mod 64) times the coefficient (p, q div 64): the left 64 lanes use the first coefficient, the right 64 the
  second. The fifty blocks tile the array, so the array the region leaves is the message function of the two arrays
  it found.
-/
import proofs.«169675_j10900626997971_1_alg».proof.Proof.Gen.KernelIdeal.Frame
import proofs.«169675_j10900626997971_1_alg».proof.Proof.Spec
import Idealize.ShloMosaic.Lib.Pipeline.Value

set_option maxRecDepth 16384

noncomputable section

namespace Cert.RelGraph.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- One coefficient column spread over 64 lanes: entry (p, q) is the coefficient (p, k). -/
theorem column_spread (x1 : FVec Ideal S16000x2 .f32) (off : Fin 2 → Nat) (k : Fin 2) (h0 : off 0 = 0) (h1 : off 1 = k.val)
    (hs : S16000x2.Slices off S16000x1) (hb : S16000x1.Broadcasts S16000x64) (p : Fin 16000) (q : Fin 64) :
    broadcastTo S16000x64 (extractStridedSlice S16000x1 off x1 hs) hb (ix2 p q) = x1 (ix2 p k) :=
  (broadcastTo_apply _ hb (ix2 p q) (ix2 p (0 : Fin 1)) (fun a => match a with
    | ⟨0, _⟩ => by show p.val = if (16000 : Nat) = 1 then 0 else p.val; rw [if_neg (by decide)]
    | ⟨1, _⟩ => by show (0 : Nat) = if (1 : Nat) = 1 then 0 else q.val; rw [if_pos rfl])).trans
  (extractStridedSlice_apply off x1 hs (ix2 p (0 : Fin 1)) (ix2 p k) (fun a => match a with
    | ⟨0, _⟩ => by show p.val = off 0 + p.val; rw [h0, Nat.zero_add]
    | ⟨1, _⟩ => by show k.val = off 1 + 0; rw [h1, Nat.add_zero]))

/-- The body's result at entry (p, q): the feature entry (p, q mod 64) times the coefficient (p, q div 64). -/
theorem body_apply (x0 : Vec Ideal S16000x64 .f32) (x1 : Vec Ideal S16000x2 .f32) (p : Fin 16000) (q : Fin 128) :
    k0_pay1 (F := Ideal) x0 x1 (ix2 p q)
      = x0 (ix2 p (⟨q.val % 64, Nat.mod_lt _ (by decide)⟩ : Fin 64)) * x1 (ix2 p (⟨q.val / 64, by have := q.isLt; omega⟩ : Fin 2)) := by
  unfold k0_pay1
  rw [shapeCast_self, shapeCast_self]
  by_cases hq : q.val < 64
  · have e1 : (⟨q.val % 64, Nat.mod_lt _ (by decide)⟩ : Fin 64) = ⟨q.val, hq⟩ := Fin.ext (Nat.mod_eq_of_lt hq)
    have e2 : (⟨q.val / 64, by have := q.isLt; omega⟩ : Fin 2) = 0 := Fin.ext (by show q.val / 64 = 0; omega)
    rw [e1, e2]
    refine (concatenate_pair_apply_left (t := S16000x128) (s₁ := S16000x64) (s₂ := S16000x64) (1 : Fin 2) _ _ concatenates_S16000x64_S16000x64_S16000x128_d1 (ix2 p q) rfl (ix2 p (⟨q.val, hq⟩ : Fin 64)) (fun b => match b with
      | ⟨0, _⟩ => rfl
      | ⟨1, _⟩ => rfl)).trans ?_
    show x0 (ix2 p ⟨q.val, hq⟩) * _ = _
    exact congrArg (x0 (ix2 p ⟨q.val, hq⟩) * ·) (column_spread x1 ![0, 0] 0 rfl rfl _ _ p ⟨q.val, hq⟩)
  · have hq' : q.val - 64 < 64 := by have := q.isLt; omega
    have e1 : (⟨q.val % 64, Nat.mod_lt _ (by decide)⟩ : Fin 64) = ⟨q.val - 64, hq'⟩ := Fin.ext (by show q.val % 64 = q.val - 64; have := q.isLt; omega)
    have e2 : (⟨q.val / 64, by have := q.isLt; omega⟩ : Fin 2) = 1 := Fin.ext (by show q.val / 64 = 1; have := q.isLt; omega)
    rw [e1, e2]
    refine (concatenate_pair_apply_right (t := S16000x128) (s₁ := S16000x64) (s₂ := S16000x64) (1 : Fin 2) _ _ concatenates_S16000x64_S16000x64_S16000x128_d1 (ix2 p q) rfl rfl (ix2 p (⟨q.val - 64, hq'⟩ : Fin 64)) (fun b hb => match b, hb with
      | ⟨0, _⟩, _ => rfl
      | ⟨1, _⟩, hb => absurd rfl hb) (by show q.val - 64 + 64 = q.val; omega)).trans ?_
    show x0 (ix2 p ⟨q.val - 64, hq'⟩) * _ = _
    exact congrArg (x0 (ix2 p ⟨q.val - 64, hq'⟩) * ·) (column_spread x1 ![0, 1] 1 rfl rfl _ _ p ⟨q.val - 64, hq'⟩)

variable (V : (c : Dev nD) → (b : Ref sig .tc) → Buf (Elt Ideal) ((c : Thread nD τ).loc b))

/-- The edges' feature rows as the region finds them. -/
abbrev featRows (c : Dev nD) : FVec Ideal S800000x64 .f32 := V c main_v6
/-- The edges' coefficient pairs as the region finds them. -/
abbrev coeffPairs (c : Dev nD) : FVec Ideal S800000x2 .f32 := V c main_v13

/-- Grid point t's three blocks all sit at block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What grid point t writes back is rows 16000·t … of the message array of the two arrays the region found. -/
theorem flushed_eq (c : Dev nD) (t : Fin cfg0.N) :
    (dat0 V c).flushed 2 t = ((cfg0.win 2).blk t).view.read (Elt Ideal) (message (featRows V c) (coeffPairs V c)) := by
  show (cfg0.win 2).cut (grid0.coords t) ((dat0 V c).after 2 t) = _
  rw [after0_2]
  unfold out0_2
  rw [View.canon_unit_zero hz]
  simp only [View.ld_unit_zero (S := S16000x64) hz, View.ld_unit_zero (S := S16000x2) hz]
  obtain ⟨e0, e1, e2, e3, e4, e5⟩ := idx_facts t
  funext j
  obtain ⟨p, q, rfl⟩ : ∃ (p : Fin 16000) (q : Fin 128), j = ix2 p q := ⟨j 0, j 1, eq_ix2 j⟩
  refine (body_apply _ _ p q).trans ?_
  show featRows V c (((cfg0.win 0).blk t).view.emb (ix2 p (⟨q.val % 64, Nat.mod_lt _ (by decide)⟩ : Fin 64)))
      * coeffPairs V c (((cfg0.win 1).blk t).view.emb (ix2 p (⟨q.val / 64, by have := q.isLt; omega⟩ : Fin 2)))
    = message (featRows V c) (coeffPairs V c) (((cfg0.win 2).blk t).view.emb (ix2 p q))
  have h0 : ((cfg0.win 0).blk t).view.emb (ix2 p (⟨q.val % 64, Nat.mod_lt _ (by decide)⟩ : Fin 64))
      = ix2 (⟨((((cfg0.win 2).blk t).view.emb (ix2 p q)) 0).val, idx2_lt0 _⟩ : Fin 800000)
          (⟨((((cfg0.win 2).blk t).view.emb (ix2 p q)) 1).val % 64, Nat.mod_lt _ (by decide)⟩ : Fin 64) := by
    funext a; apply Fin.ext
    match a with
    | ⟨0, _⟩ => show win0_0.index t (0 : Fin 2) * 16000 + 1 * p.val = win0_2.index t (0 : Fin 2) * 16000 + 1 * p.val; omega
    | ⟨1, _⟩ => show win0_0.index t (1 : Fin 2) * 64 + 1 * (q.val % 64) = (win0_2.index t (1 : Fin 2) * 128 + 1 * q.val) % 64; omega
  have h1 : ((cfg0.win 1).blk t).view.emb (ix2 p (⟨q.val / 64, by have := q.isLt; omega⟩ : Fin 2))
      = ix2 (⟨((((cfg0.win 2).blk t).view.emb (ix2 p q)) 0).val, idx2_lt0 _⟩ : Fin 800000)
          (⟨((((cfg0.win 2).blk t).view.emb (ix2 p q)) 1).val / 64, by have := idx2_lt1 (((cfg0.win 2).blk t).view.emb (ix2 p q)); omega⟩ : Fin 2) := by
    funext a; apply Fin.ext
    match a with
    | ⟨0, _⟩ => show win0_1.index t (0 : Fin 2) * 16000 + 1 * p.val = win0_2.index t (0 : Fin 2) * 16000 + 1 * p.val; omega
    | ⟨1, _⟩ => show win0_1.index t (1 : Fin 2) * 2 + 1 * (q.val / 64) = (win0_2.index t (1 : Fin 2) * 128 + 1 * q.val) / 64; omega
  rw [h0, h1]
  rfl

/-- An index of the message array is in grid point t's block iff each coordinate is in the block's range. -/
theorem mem_blk (t : Fin cfg0.N) (i : S800000x128.Idx) :
    i ∈ ((cfg0.win 2).blk t).view.set ↔ ∀ a : Fin 2, win0_2.index t a * S16000x128.size a ≤ (i a).val ∧ (i a).val < win0_2.index t a * S16000x128.size a + S16000x128.size a := by
  show i ∈ ((View.whole main_v14).slice (win0_2.rect t)).set ↔ _
  rw [View.set_slice_whole, Rect.mem_set_unit]
  exact Iff.rfl

/-- Row r of the message array is in the block of grid point r div 16000. -/
theorem cover (i : S800000x128.Idx) : ∃ t : Fin cfg0.N, (cfg0.win 2).flush t = true ∧ i ∈ ((cfg0.win 2).blk t).view.set := by
  have hi0 : (i 0).val < 800000 := (i 0).isLt
  have hi1 : (i 1).val < 128 := (i 1).isLt
  have hN : (i 0).val / 16000 < cfg0.N := by show _ < grid0.N; rw [N_0]; omega
  obtain ⟨-, -, -, -, e4, e5⟩ := idx_facts ⟨(i 0).val / 16000, hN⟩
  refine ⟨⟨(i 0).val / 16000, hN⟩, flush0_2 _, ?_⟩
  rw [mem_blk]
  intro a
  match a with
  | ⟨0, _⟩ =>
    show win0_2.index ⟨(i 0).val / 16000, hN⟩ (0 : Fin 2) * 16000 ≤ (i 0).val ∧ (i 0).val < win0_2.index ⟨(i 0).val / 16000, hN⟩ (0 : Fin 2) * 16000 + 16000
    rw [e4]; show (i 0).val / 16000 * 16000 ≤ (i 0).val ∧ (i 0).val < (i 0).val / 16000 * 16000 + 16000; omega
  | ⟨1, _⟩ =>
    show win0_2.index ⟨(i 0).val / 16000, hN⟩ (1 : Fin 2) * 128 ≤ (i 1).val ∧ (i 1).val < win0_2.index ⟨(i 0).val / 16000, hN⟩ (1 : Fin 2) * 128 + 128
    rw [e5]; omega

/-- The array the region leaves: the messages of all edges, from the feature rows and coefficient pairs it found. -/
theorem array_eq (c : Dev nD) : (dat0 V c).arrAt 2 cfg0.N = message (featRows V c) (coeffPairs V c) :=
  (dat0 V c).arrAt_eq_of_cover 2 _ (fun t _ => flushed_eq V c t) cover

end Cert.RelGraph.Region0

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Region1.lean ====
/-
  The second kernel region: the output rows of all nodes.

  Grid point t takes rows 5000·t … 5000·t + 4999 of the aggregate and of the node features, and the whole of the
  stacked basis weights, the bias row and the self-loop weight, and writes the same rows of the output. At the exact
  values rounding the operands to a shorter format changes nothing and a matrix product into a zero accumulator is
  the exact sum over the contracted index, so entry (p, q) of the body's result is
      Σ_κ agg[p, κ] · Wr[κ, q]  +  Σ_κ feat[p, κ] · Wl[κ, q]  +  b[0, q].
  The ten blocks tile the output, so the array the region leaves is the node-output function of the five arrays it
  found.
-/
import proofs.«169675_j10900626997971_1_alg».proof.Proof.Gen.KernelIdeal.Frame
import proofs.«169675_j10900626997971_1_alg».proof.Proof.Spec
import proofs.«169675_j10900626997971_1_alg».proof.Proof.LibPlainDot
import Idealize.ShloMosaic.Lib.Pipeline.Value

set_option maxRecDepth 16384

noncomputable section

namespace Cert.RelGraph.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- Both of the body's products are plain matrix products. -/
theorem plain_agg : Cert.PlainDot.Plain dot_S5000x128_S128x64_S5000x64_1_0_0_1_n_n := ⟨rfl, rfl, rfl, rfl, rfl, rfl⟩
theorem plain_self : Cert.PlainDot.Plain dot_S5000x64_S64x64_S5000x64_1_0_0_1_n_n := ⟨rfl, rfl, rfl, rfl, rfl, rfl⟩

/-- The bias row spread over the block's rows: entry (p, q) is the bias entry (0, q). -/
theorem row_spread (b : FVec Ideal S1x64 .f32) (hb : S1x64.Broadcasts S5000x64) (p : Fin 5000) (q : Fin 64) :
    broadcastTo S5000x64 b hb (ix2 p q) = b (ix2 (0 : Fin 1) q) :=
  broadcastTo_apply _ hb (ix2 p q) (ix2 (0 : Fin 1) q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- The body's result at entry (p, q): the two exact sums and the bias. -/
theorem body_apply (v0 : Vec Ideal S5000x128 .f32) (v3 : Vec Ideal S128x64 .f32) (v6 : Vec Ideal S5000x64 .f32)
    (v8 : Vec Ideal S64x64 .f32) (v13 : Vec Ideal S1x64 .f32) (p : Fin 5000) (q : Fin 64) :
    k1_pay1 (F := Ideal) v0 v3 v6 v8 v13 (ix2 p q)
      = (∑ κ : Fin 128, (v0 : FVec Ideal S5000x128 .f32) (ix2 p κ) * (v3 : FVec Ideal S128x64 .f32) (ix2 κ q)
          + ∑ κ : Fin 64, (v6 : FVec Ideal S5000x64 .f32) (ix2 p κ) * (v8 : FVec Ideal S64x64 .f32) (ix2 κ q))
        + (v13 : FVec Ideal S1x64 .f32) (ix2 (0 : Fin 1) q) := by
  unfold k1_pay1
  rw [shapeCast_self, shapeCast_self, shapeCast_self, addf_apply, addf_apply]
  refine congrArg₂ (· + ·) (congrArg₂ (· + ·) ?_ ?_) ?_
  · exact Cert.PlainDot.matmul_zero_apply plain_agg rfl rfl none _ _ p q
  · exact Cert.PlainDot.matmul_zero_apply plain_self rfl rfl none _ _ p q
  · exact row_spread _ _ p q

variable (V : (c : Dev nD) → (b : Ref sig .tc) → Buf (Elt Ideal) ((c : Thread nD τ).loc b))

/-- The five arrays as the region finds them. -/
abbrev aggA (c : Dev nD) : FVec Ideal S50000x128 .f32 := V c main_v17
abbrev featA (c : Dev nD) : FVec Ideal S50000x64 .f32 := V c main_arg0
abbrev wrA (c : Dev nD) : FVec Ideal S128x64 .f32 := V c main_v18
abbrev biasA (c : Dev nD) : FVec Ideal S1x64 .f32 := V c main_v19
abbrev wlA (c : Dev nD) : FVec Ideal S64x64 .f32 := V c main_arg4

/-- Grid point t's row blocks sit at block row t; the three whole operands at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What grid point t writes back is rows 5000·t … of the node outputs of the five arrays the region found. -/
theorem flushed_eq (c : Dev nD) (t : Fin cfg1.N) :
    (dat1 V c).flushed 5 t = ((cfg1.win 5).blk t).view.read (Elt Ideal) (nodeOut (aggA V c) (featA V c) (wrA V c) (biasA V c) (wlA V c)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x64) hz, View.ld_unit_zero (S := S128x64) hz,
    View.ld_unit_zero (S := S1x64) hz, View.ld_unit_zero (S := S64x64) hz]
  obtain ⟨e00, e01, e10, e11, e20, e21, e30, e31, e40, e41, e50, e51⟩ := idx_facts t
  funext j
  obtain ⟨p, q, rfl⟩ : ∃ (p : Fin 5000) (q : Fin 64), j = ix2 p q := ⟨j 0, j 1, eq_ix2 j⟩
  refine (body_apply _ _ _ _ _ p q).trans ?_
  show (∑ κ : Fin 128, aggA V c (((cfg1.win 0).blk t).view.emb (ix2 p κ)) * wrA V c (((cfg1.win 2).blk t).view.emb (ix2 κ q))
        + ∑ κ : Fin 64, featA V c (((cfg1.win 1).blk t).view.emb (ix2 p κ)) * wlA V c (((cfg1.win 4).blk t).view.emb (ix2 κ q)))
      + biasA V c (((cfg1.win 3).blk t).view.emb (ix2 (0 : Fin 1) q))
    = nodeOut (aggA V c) (featA V c) (wrA V c) (biasA V c) (wlA V c) (((cfg1.win 5).blk t).view.emb (ix2 p q))
  have h0 : ∀ κ : Fin 128, ((cfg1.win 0).blk t).view.emb (ix2 p κ)
      = ix2 (⟨((((cfg1.win 5).blk t).view.emb (ix2 p q)) 0).val, idx2_lt0 _⟩ : Fin 50000) κ := fun κ => by
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * κ.val = κ.val; omega
  have h1 : ∀ κ : Fin 64, ((cfg1.win 1).blk t).view.emb (ix2 p κ)
      = ix2 (⟨((((cfg1.win 5).blk t).view.emb (ix2 p q)) 0).val, idx2_lt0 _⟩ : Fin 50000) κ := fun κ => by
    funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 64 + 1 * κ.val = κ.val; omega
  have h2 : ∀ κ : Fin 128, ((cfg1.win 2).blk t).view.emb (ix2 κ q)
      = ix2 κ (⟨((((cfg1.win 5).blk t).view.emb (ix2 p q)) 1).val, idx2_lt1 _⟩ : Fin 64) := fun κ => by
    funext a; apply Fin.ext
    match a with
    | ⟨0, _⟩ => show win1_2.index t (0 : Fin 2) * 128 + 1 * κ.val = κ.val; omega
    | ⟨1, _⟩ => show win1_2.index t (1 : Fin 2) * 64 + 1 * q.val = win1_5.index t (1 : Fin 2) * 64 + 1 * q.val; omega
  have h4 : ∀ κ : Fin 64, ((cfg1.win 4).blk t).view.emb (ix2 κ q)
      = ix2 κ (⟨((((cfg1.win 5).blk t).view.emb (ix2 p q)) 1).val, idx2_lt1 _⟩ : Fin 64) := fun κ => by
    funext a; apply Fin.ext
    match a with
    | ⟨0, _⟩ => show win1_4.index t (0 : Fin 2) * 64 + 1 * κ.val = κ.val; omega
    | ⟨1, _⟩ => show win1_4.index t (1 : Fin 2) * 64 + 1 * q.val = win1_5.index t (1 : Fin 2) * 64 + 1 * q.val; omega
  have h3 : ((cfg1.win 3).blk t).view.emb (ix2 (0 : Fin 1) q)
      = ix2 (0 : Fin 1) (⟨((((cfg1.win 5).blk t).view.emb (ix2 p q)) 1).val, idx2_lt1 _⟩ : Fin 64) := by
    funext a; apply Fin.ext
    match a with
    | ⟨0, _⟩ => show win1_3.index t (0 : Fin 2) * 1 + 1 * 0 = 0; omega
    | ⟨1, _⟩ => show win1_3.index t (1 : Fin 2) * 64 + 1 * q.val = win1_5.index t (1 : Fin 2) * 64 + 1 * q.val; omega
  rw [h3]
  simp only [h0, h1, h2, h4]
  rfl

/-- An index of the output is in grid point t's block iff each coordinate is in the block's range. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v20).slice (win1_5.rect t)).set ↔ _
  rw [View.set_slice_whole, Rect.mem_set_unit]
  exact Iff.rfl

/-- Row r of the output is in the block of grid point r div 5000. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : (i 0).val / 5000 < cfg1.N := by show _ < grid1.N; rw [N_1]; omega
  obtain ⟨-, -, -, -, -, -, -, -, -, -, e50, e51⟩ := idx_facts ⟨(i 0).val / 5000, hN⟩
  refine ⟨⟨(i 0).val / 5000, hN⟩, flush1_5 _, ?_⟩
  rw [mem_blk]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hN⟩ (1 : Fin 2) * 64 ≤ (i 1).val ∧ (i 1).val < win1_5.index ⟨(i 0).val / 5000, hN⟩ (1 : Fin 2) * 64 + 64
    rw [e51]; omega

/-- The array the region leaves: the output rows of all nodes, from the five arrays it found. -/
theorem array_eq (c : Dev nD) : (dat1 V c).arrAt 5 cfg1.N = nodeOut (aggA V c) (featA V c) (wrA V c) (biasA V c) (wlA V c) :=
  (dat1 V c).arrAt_eq_of_cover 5 _ (fun t _ => flushed_eq V c t) cover

end Cert.RelGraph.Region1

end
-- ==== Proof.KernelValue.lean ====
/-
  The kernel program's result as the layer of its arguments.

  The result buffer is the second region's output array: the node outputs of the aggregate, the node features, the
  stacked basis weights, the bias row and the self-loop weight that region found. The aggregate it found is the
  per-destination sum of the first region's message array, which is the message function of the feature rows and
  coefficient pairs read at the wrapped indices before that region. Nothing on the way writes an argument.
-/
import proofs.«169675_j10900626997971_1_alg».proof.Proof.KernelHost
import proofs.«169675_j10900626997971_1_alg».proof.Proof.Region0
import proofs.«169675_j10900626997971_1_alg».proof.Proof.Region1

set_option maxRecDepth 16384

noncomputable section

namespace Cert.RelGraph.KernelValue

open Idealize.ShloMosaic Idealize.ShloMosaic.TcCoe Idealize.SL.Sem
open Cert.KernelIdeal Cert.KernelIdeal.Gen Cert.RelGraph.KernelHost

variable (m : (ℓ : Loc nD τ sig) → Buf (Elt Ideal) ℓ) (ρ : Dev nD → PrngReg)

/-- The aggregate the second region finds, from the arguments. -/
theorem agg_eq (c : Dev nD) : Region1.aggA (V3 m ρ) c
    = aggregate (m ((c : Thread nD τ).loc main_arg6)) (message (featAtSrc (m ((c : Thread nD τ).loc main_arg0)) (m ((c : Thread nD τ).loc main_arg5))) (coeffAtType (m ((c : Thread nD τ).loc main_arg2)) (m ((c : Thread nD τ).loc main_arg7)))) := by
  show V3 m ρ c main_v17 = _
  rw [entry1_agg, Region0.array_eq]
  show aggregate _ (message (V1 m ρ c main_v6) (V1 m ρ c main_v13)) = _
  rw [entry0_feat, entry0_coeff]

/-- The result buffer at the last segment boundary is the layer of the launch contents of the arguments. -/
theorem result_eq (c : Dev nD) : W4 m ρ c (Proc.devRef .tc main_v20)
    = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  calc W4 m ρ c (Proc.devRef .tc main_v20)
      = (dat1 (V3 m ρ) c).arrAt 5 cfg1.N := W4_arr m ρ c 5
    _ = nodeOut (Region1.aggA (V3 m ρ) c) (Region1.featA (V3 m ρ) c) (Region1.wrA (V3 m ρ) c) (Region1.biasA (V3 m ρ) c)
          (Region1.wlA (V3 m ρ) c) := Region1.array_eq (V3 m ρ) c
    _ = _ := by
      rw [agg_eq, show Region1.featA (V3 m ρ) c = _ from entry1_feat m ρ c, show Region1.wrA (V3 m ρ) c = _ from entry1_wr m ρ c,
        show Region1.biasA (V3 m ρ) c = _ from entry1_bias m ρ c, show Region1.wlA (V3 m ρ) c = _ from entry1_wl m ρ c]
      rfl

end Cert.RelGraph.KernelValue

end
-- ==== Proof.Reference.lean ====
/-
  The reference computes the layer.

  Its messages are the coefficient pairs and the feature rows spread to edge × basis × feature and multiplied, then
  re-laid as 128 entries an edge: entry (e, j) is c_e[j div 64] · f_e[j mod 64], the product the specification writes
  the other way round. Its output adds the bias before the self-loop term where the specification adds it after:
  the same sum of three, since addition of extended reals is commutative and associative. The two index tables, the
  aggregation and the stacked basis weights are the specification's own terms.
-/
import proofs.«169675_j10900626997971_1_alg».proof.Proof.Gen.ReferenceIdeal.Read
import proofs.«169675_j10900626997971_1_alg».proof.Proof.Spec
import proofs.«169675_j10900626997971_1_alg».proof.Proof.LibPlainDot
import Idealize.ShloMosaic.Lib.ValueLayout

noncomputable section

namespace Cert.RelGraph.Reference

open Idealize.ShloMosaic Idealize.ShloMosaic.TcCoe Idealize.ShloMosaic.ValueIdx
open Cert.ReferenceIdeal Cert.ReferenceIdeal.Gen Cert.ReferenceIdeal.Read

variable (x0 : (⟨S50000x64, .f32⟩ : BufTy).Contents (Elt Ideal)) (x1 : (⟨S2x64x64, .f32⟩ : BufTy).Contents (Elt Ideal))
  (x2 : (⟨S8x2, .f32⟩ : BufTy).Contents (Elt Ideal)) (x3 : (⟨S64, .f32⟩ : BufTy).Contents (Elt Ideal))
  (x4 : (⟨S64x64, .f32⟩ : BufTy).Contents (Elt Ideal)) (x5 x6 x7 : (⟨S800000, .i32⟩ : BufTy).Contents (Elt Ideal))

/-- The reference reads the feature table at the wrapped source indices … -/
theorem feat_eq : val_main_v14 (F := Ideal) x0 x5 = featAtSrc x0 x5 := rfl

/-- … and the coefficient table at the wrapped relation types. -/
theorem coeff_eq : val_main_v6 (F := Ideal) x2 x7 = coeffAtType x2 x7 := rfl

/-- The reference's messages, re-laid as 128 entries an edge, are the specification's. -/
theorem message_eq : val_main_v19 (F := Ideal) x0 x2 x5 x7 = message (featAtSrc x0 x5) (coeffAtType x2 x7) := by
  rw [← feat_eq, ← coeff_eq]
  funext i
  rw [val_main_v19_apply, val_main_v18_apply, val_main_v16_apply, val_main_v7_apply, val_main_v17_apply, val_main_v15_apply]
  have hi0 : (i 0).val < 800000 := (i 0).isLt
  have hi1 : (i 1).val < 128 := (i 1).isLt
  have hc : idx_main_v7 (idx_main_v16 (idx_main_v19 i))
      = ix2 (⟨(i 0).val, idx2_lt0 i⟩ : Fin 800000) (⟨(i 1).val / 64, by have := idx2_lt1 i; omega⟩ : Fin 2) := by
    funext a; apply Fin.ext
    match a with
    | ⟨0, _⟩ => show ((i 0).val * 128 + (i 1).val) / 128 = (i 0).val; omega
    | ⟨1, _⟩ => show ((i 0).val * 128 + (i 1).val) / 64 % 2 = (i 1).val / 64; omega
  have hf : idx_main_v15 (idx_main_v17 (idx_main_v19 i))
      = ix2 (⟨(i 0).val, idx2_lt0 i⟩ : Fin 800000) (⟨(i 1).val % 64, Nat.mod_lt _ (by decide)⟩ : Fin 64) := by
    funext a; apply Fin.ext
    match a with
    | ⟨0, _⟩ => show ((i 0).val * 128 + (i 1).val) / 128 = (i 0).val; omega
    | ⟨1, _⟩ => show ((i 0).val * 128 + (i 1).val) % 64 = (i 1).val % 64; omega
  rw [hc, hf]
  exact mul_comm _ _

/-- The reference's aggregate is the specification's. -/
theorem aggregate_eq : val_main_v22 (F := Ideal) x0 x2 x5 x6 x7 = aggregate x6 (message (featAtSrc x0 x5) (coeffAtType x2 x7)) := by
  unfold val_main_v22
  rw [message_eq]
  rfl

/-- Both of the reference's products are plain matrix products. -/
theorem plain_agg : Cert.PlainDot.Plain dot_S50000x128_S128x64_S50000x64_1_0_0_1_n_n := ⟨rfl, rfl, rfl, rfl, rfl, rfl⟩
theorem plain_self : Cert.PlainDot.Plain dot_S50000x64_S64x64_S50000x64_1_0_0_1_n_n := ⟨rfl, rfl, rfl, rfl, rfl, rfl⟩

/-- The bias spread over the nodes reads the bias entry of the column … -/
theorem bias_apply (p : Fin 50000) (q : Fin 64) : val_main_v26 (F := Ideal) x3 (ix2 p q) = x3 (ix1 q) := by
  rw [val_main_v26_apply, val_main_v25_apply]
  exact congrArg x3 (funext fun a => Fin.ext (by match a with | ⟨0, _⟩ => rfl))

/-- … and so does the bias re-laid as a row. -/
theorem bias_row_apply (q : Fin 64) :
    (shapeCast Cert.KernelIdeal.S1x64 x3 Cert.KernelIdeal.Facts₀.shapeCasts_S64_S1x64 : FVec Ideal Cert.KernelIdeal.S1x64 .f32) (ix2 (0 : Fin 1) q) = x3 (ix1 q) :=
  shapeCast_a_1a_apply x3 _ 0 q

/-- The reference's result is the layer of its eight arguments. -/
theorem result_eq : val_main_v29 (F := Ideal) x0 x1 x2 x3 x4 x5 x6 x7 = layer x0 x1 x2 x3 x4 x5 x6 x7 := by
  funext i
  obtain ⟨p, q, rfl⟩ : ∃ (p : Fin 50000) (q : Fin 64), i = ix2 p q := ⟨i 0, i 1, eq_ix2 i⟩
  rw [val_main_v29_apply, val_main_v27_apply, bias_apply]
  unfold val_main_v24 val_main_v28
  rw [Cert.PlainDot.dotGeneral_apply plain_agg rfl rfl none _ _ p q, Cert.PlainDot.dotGeneral_apply plain_self rfl rfl none _ _ p q,
    aggregate_eq]
  show (∑ κ : Fin 128, _ * _ + x3 (ix1 q)) + ∑ κ : Fin 64, _ * _ = _
  rw [add_right_comm, ← bias_row_apply x3 q]
  rfl

end Cert.RelGraph.Reference

end
-- ==== Proof.lean ====
/-
  A basis-regularized relational graph convolution, computed by two tiled kernels around the table reads and the
  per-destination aggregation, against its plain array reference: equal at the exact values.

  Both programs read the node features at the edges' source nodes and the basis coefficients at the edges' relation
  types (negative indices wrapped by the extent), form each edge's message (coefficient × feature row, for both
  bases, 128 entries an edge), sum the messages per destination node, and give node n the row
      agg_n · Wr + feat_n · Wl + b
  with Wr the two basis matrices stacked. The kernel program forms the messages fifty blocks of 16000 edges at a
  time and the output rows ten blocks of 5000 nodes at a time, rounding its matrix operands to a shorter format on
  the way in; at the exact values that rounding is the identity and each matrix product is the exact sum over the
  contracted index. The two differ only in the order of the factors of a message and in whether the bias is added
  before or after the self-loop term: commutativity and associativity on the extended reals, which hold at the
  infinities too, so the equality needs nothing of the inputs.

  The three frames: each kernel program's is its generated frame; the reference's is its generated run with the
  result dropped. The idealization rewrote no operation, so it has nothing to preserve.
-/
import proofs.«169675_j10900626997971_1_alg».proof.Defs
import proofs.«169675_j10900626997971_1_alg».proof.Proof.Gen.Kernel
import proofs.«169675_j10900626997971_1_alg».proof.Proof.Gen.Kernel.Skeleton
import proofs.«169675_j10900626997971_1_alg».proof.Proof.Gen.Kernel.Launch
import proofs.«169675_j10900626997971_1_alg».proof.Proof.Gen.Kernel.Points
import proofs.«169675_j10900626997971_1_alg».proof.Proof.Gen.Kernel.Frame
import proofs.«169675_j10900626997971_1_alg».proof.Proof.Gen.KernelIdeal
import proofs.«169675_j10900626997971_1_alg».proof.Proof.Gen.KernelIdeal.Skeleton
import proofs.«169675_j10900626997971_1_alg».proof.Proof.Gen.KernelIdeal.Launch
import proofs.«169675_j10900626997971_1_alg».proof.Proof.Gen.KernelIdeal.Points
import proofs.«169675_j10900626997971_1_alg».proof.Proof.Gen.KernelIdeal.Frame
import proofs.«169675_j10900626997971_1_alg».proof.Proof.Gen.ReferenceIdeal
import proofs.«169675_j10900626997971_1_alg».proof.Proof.Gen.Pre_finite_inputs
import proofs.«169675_j10900626997971_1_alg».proof.Proof.Gen.ReferenceIdeal.Run
import proofs.«169675_j10900626997971_1_alg».proof.Proof.Gen.ReferenceIdeal.Read
import proofs.«169675_j10900626997971_1_alg».proof.Proof.KernelRun
import proofs.«169675_j10900626997971_1_alg».proof.Proof.KernelValue
import proofs.«169675_j10900626997971_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the kernel program's arguments in their result: the kernel program's result
    buffer read off its run, the reference's result term read stage by stage, the arguments' agreement rewritten. -/
theorem algebraic : Cert.algebraic_KernelIdeal_ReferenceIdeal := by
  intro m ρ m' ρ' _ hagree
  refine ⟨fun c => Cert.RelGraph.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.RelGraph.KernelValue.result_eq m ρ c), (h c).2⟩)
      (Cert.KernelIdeal.RunNamed.run (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7⟩ := hagree c
    rw [(h c).1, Cert.ReferenceIdeal.Read.val_main_v29_eq, Cert.RelGraph.Reference.result_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
